-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x128 : Shape := ⟨2, ![800000, 128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128x128 .f32) (main_arg6 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S800000x128 .f32) (main_arg3 : FVec F S128x128 .f32) (main_arg4 : FVec F S128x128 .f32) (main_arg5 : FVec F S128x128 .f32) (main_arg6 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg2
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S800000x128 : Shape := ⟨2, ![800000, 128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S3200x128 : Shape := ⟨2, ![3200, 128]⟩
abbrev S5000x128 : Shape := ⟨2, ![5000, 128]⟩

abbrev nBuf : Space → Nat
  | .hbm => 37
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .f32⟩
  | .hbm, ⟨29, _⟩ => ⟨S800000x128, .f32⟩
  | .hbm, ⟨30, _⟩ => ⟨S1x800000, .i32⟩
  | .hbm, ⟨31, _⟩ => ⟨S800000, .i32⟩
  | .hbm, ⟨32, _⟩ => ⟨S_, .f32⟩
  | .hbm, ⟨33, _⟩ => ⟨S50000x128, .f32⟩
  | .hbm, ⟨34, _⟩ => ⟨S800000x1, .i32⟩
  | .hbm, ⟨35, _⟩ => ⟨S50000x128, .f32⟩
  | .hbm, ⟨36, _⟩ => ⟨S50000x128, .f32⟩
  | .local _ .vmem, ⟨0, _⟩ => ⟨S3200x128, .f32⟩
  | .local _ .vmem, ⟨1, _⟩ => ⟨S3200x128, .f32⟩
  | .local _ .vmem, ⟨2, _⟩ => ⟨S3200x128, .f32⟩
  | .local _ .vmem, ⟨3, _⟩ => ⟨S3200x128, .f32⟩
  | .local _ .vmem, ⟨4, _⟩ => ⟨S3200x128, .f32⟩
  | .local _ .vmem, ⟨5, _⟩ => ⟨S3200x128, .f32⟩
  | .local _ .vmem, ⟨6, _⟩ => ⟨S128x128, .f32⟩
  | .local _ .vmem, ⟨7, _⟩ => ⟨S128x128, .f32⟩
  | .local _ .vmem, ⟨8, _⟩ => ⟨S3200x128, .f32⟩
  | .local _ .vmem, ⟨9, _⟩ => ⟨S3200x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3200x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_0_0 : S2x800000.Slices ![0, 0] S1x800000
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  gather_S50000x128_S800000x1_S800000x128_1_0_n_n_0_1_1128_wf : GatherDims.WF S50000x128 S800000x1 S800000x128 [1] [0] [] [0] [] 1 ![1, 128]
  dot_S3200x128_S128x128_S3200x128_1_0_0_1_n_n_wf : DotDims.WF S3200x128 S128x128 S3200x128 [1] [0] [0] [1] [] []
  dot_S3200x128_S128x128_S3200x128_1_1_0_0_n_n_wf : DotDims.WF S3200x128 S128x128 S3200x128 [1] [1] [0] [0] [] []
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x128_S5000x128_1_1_0_0_n_n_wf : DotDims.WF S5000x128 S128x128 S5000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S800000x128.size a
  hwx0_0 : ∀ i : grid0.Coords, EltTy.bits .f32 = 32 ∨ (Rect.block (s := S800000x128) S3200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S800000x128.size a
  hwx0_1 : ∀ i : grid0.Coords, EltTy.bits .f32 = 32 ∨ (Rect.block (s := S800000x128) S3200x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x128.size a ≤ S800000x128.size a
  hwx0_2 : ∀ i : grid0.Coords, EltTy.bits .f32 = 32 ∨ (Rect.block (s := S800000x128) S3200x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3200x128.size a ≤ S800000x128.size a
  hwx0_5 : ∀ i : grid0.Coords, EltTy.bits .f32 = 32 ∨ (Rect.block (s := S800000x128) S3200x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def dot_S3200x128_S128x128_S3200x128_1_1_0_0_n_n : DotDims S3200x128 S128x128 S3200x128 where
  lhsContracting := [1]
  rhsContracting := [1]
  lhsNonContracting := [0]
  rhsNonContracting := [0]
  lhsBatch := []
  rhsBatch := []
  wf := dot_S3200x128_S128x128_S3200x128_1_1_0_0_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf

abbrev win0_0 : Pipeline.Window sig grid0 :=
  Pipeline.Window.ofSpec (Memref.whole main_v8) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3200x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S3200x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x128 : Shape := ⟨2, ![800000, 128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩

abbrev nBuf : Space → Nat
  | .hbm => 52
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .f32⟩
  | .hbm, ⟨29, _⟩ => ⟨S800000x128, .f32⟩
  | .hbm, ⟨30, _⟩ => ⟨S800000x128, .f32⟩
  | .hbm, ⟨31, _⟩ => ⟨S128x128, .f32⟩
  | .hbm, ⟨32, _⟩ => ⟨S800000x128, .f32⟩
  | .hbm, ⟨33, _⟩ => ⟨S800000x128, .f32⟩
  | .hbm, ⟨34, _⟩ => ⟨S800000x128, .f32⟩
  | .hbm, ⟨35, _⟩ => ⟨S1x800000, .i32⟩
  | .hbm, ⟨36, _⟩ => ⟨S800000, .i32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x128, .f32⟩
  | .hbm, ⟨42, _⟩ => ⟨S128x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .f32⟩
  | .hbm, ⟨50, _⟩ => ⟨S800000x128, .f32⟩
  | .hbm, ⟨51, _⟩ => ⟨S800000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_call0_cst : Ref sig .tc := ⟨.hbm, 46, rfl⟩
abbrev main_call0_v0 : Ref sig .tc := ⟨.hbm, 47, rfl⟩
abbrev main_v34 : Ref sig .tc := ⟨.hbm, 48, rfl⟩
abbrev main_call1_cst : Ref sig .tc := ⟨.hbm, 49, rfl⟩
abbrev main_call1_v0 : Ref sig .tc := ⟨.hbm, 50, rfl⟩
abbrev main_v35 : Ref sig .tc := ⟨.hbm, 51, rfl⟩

abbrev nD : Nat := 1
abbrev τ : Topo := Topo.v7x

variable {F : FTy → Type} [FloatOps F]

class Facts₀ : Prop where
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_0_0 : S2x800000.Slices ![0, 0] S1x800000
  transposes_S128x128_S128x128_1_0 : S128x128.Transposes [1, 0] S128x128
  bcast_S_S50000x128 : S_.BroadcastsInDim S50000x128 (![] : Fin 0 → Fin S50000x128.rank)
  bcast_S_S800000x128 : S_.BroadcastsInDim S800000x128 (![] : Fin 0 → Fin S800000x128.rank)
  gather_S50000x128_S800000x1_S800000x128_1_0_n_n_0_1_1128_wf : GatherDims.WF S50000x128 S800000x1 S800000x128 [1] [0] [] [0] [] 1 ![1, 128]
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.EdgeBody.lean ====
/-
  The edge kernel's body at one entry of its row block.

  The body stores ONE value over its whole [3200, 128] block: the rectifier of  A·W + X·Bᵀ + X  of the blocks it
  loaded (for the edge kernel A is the difference of the two endpoint blocks). On the extended reals the
  narrowing of the matrix unit's operands is the identity and a product into a zero accumulator is the
  plain sum over the 128 contracted channels, so at the entry (row r, column c) of the block the stored
  value is   max ( Σ_k A[r,k]·W[k,c] + Σ_k X[r,k]·B[c,k] + X[r,c] , 0 ):
  the first product contracts the matrix's ROWS, the second its COLUMNS (the transposed read).
-/
import proofs.«174323_j55585466745382_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.EdgeBody

open Cert.KernelIdeal Cert.KernelIdeal.Gen Idealize.ShloMosaic Idealize.ShloMosaic.TcCoe

/-! ## Indices inside the block -/

/-- Entry `(row of j, k)` of a row block. -/
abbrev blockRow (j : S3200x128.Idx) (k : Fin 128) : S3200x128.Idx := fun a => match a with
  | ⟨0, _⟩ => ⟨(j 0).val, (j 0).isLt⟩
  | ⟨1, _⟩ => ⟨k.val, k.isLt⟩
/-- Entry `(k, column of j)` of a matrix. -/
abbrev matKC (j : S3200x128.Idx) (k : Fin 128) : S128x128.Idx := fun a => match a with
  | ⟨0, _⟩ => ⟨k.val, k.isLt⟩
  | ⟨1, _⟩ => ⟨(j 1).val, (j 1).isLt⟩
/-- Entry `(column of j, k)` of a matrix: the transposed read. -/
abbrev matCK (j : S3200x128.Idx) (k : Fin 128) : S128x128.Idx := fun a => match a with
  | ⟨0, _⟩ => ⟨(j 1).val, (j 1).isLt⟩
  | ⟨1, _⟩ => ⟨k.val, k.isLt⟩

/-! ## The first product: rows of the block against columns of the matrix -/

theorem lhsP_0 (i : S3200x128.Idx) (q : dot_S3200x128_S128x128_S3200x128_1_0_0_1_n_n.contr.Idx) :
    (dot_S3200x128_S128x128_S3200x128_1_0_0_1_n_n.lhsIdx i q 0).val = (i 0).val := by
  unfold DotDims.lhsIdx
  rw [dif_neg (show ¬(0 : Fin S3200x128.rank) ∈ dot_S3200x128_S128x128_S3200x128_1_0_0_1_n_n.lhsBatch by decide), dif_pos (show (0 : Fin S3200x128.rank) ∈ dot_S3200x128_S128x128_S3200x128_1_0_0_1_n_n.lhsNonContracting by decide)]
  rfl
theorem lhsP_1 (i : S3200x128.Idx) (q : dot_S3200x128_S128x128_S3200x128_1_0_0_1_n_n.contr.Idx) :
    (dot_S3200x128_S128x128_S3200x128_1_0_0_1_n_n.lhsIdx i q 1).val = (q ⟨0, by decide⟩).val :=
  dot_S3200x128_S128x128_S3200x128_1_0_0_1_n_n.lhsIdx_val_of_single rfl i q
theorem rhsP_0 (i : S3200x128.Idx) (q : dot_S3200x128_S128x128_S3200x128_1_0_0_1_n_n.contr.Idx) :
    (dot_S3200x128_S128x128_S3200x128_1_0_0_1_n_n.rhsIdx i q 0).val = (q ⟨0, by decide⟩).val :=
  dot_S3200x128_S128x128_S3200x128_1_0_0_1_n_n.rhsIdx_val_of_single rfl i q
theorem rhsP_1 (i : S3200x128.Idx) (q : dot_S3200x128_S128x128_S3200x128_1_0_0_1_n_n.contr.Idx) :
    (dot_S3200x128_S128x128_S3200x128_1_0_0_1_n_n.rhsIdx i q 1).val = (i 1).val := by
  unfold DotDims.rhsIdx
  rw [dif_neg (show ¬(1 : Fin S128x128.rank) ∈ dot_S3200x128_S128x128_S3200x128_1_0_0_1_n_n.rhsBatch by decide), dif_pos (show (1 : Fin S128x128.rank) ∈ dot_S3200x128_S128x128_S3200x128_1_0_0_1_n_n.rhsNonContracting by decide)]
  rfl

/-- The product into a zero accumulator, at an entry: the sum over the contracted channel. -/
theorem prod_apply (l : FVec Ideal S3200x128 .bf16) (r : FVec Ideal S128x128 .bf16) (j : S3200x128.Idx) :
    FloatOps.matmul dot_S3200x128_S128x128_S3200x128_1_0_0_1_n_n none l r (constant (F := Ideal) S3200x128 .f32 0x00000000#32) j
      = ∑ k : Fin 128, l (blockRow j k) * r (matKC j k) := by
  rw [Ideal.matmul_constant_zero_apply, ← Equiv.sum_comp (ValueIdx.contrEquiv1 dot_S3200x128_S128x128_S3200x128_1_0_0_1_n_n 128 rfl rfl).symm]
  refine Finset.sum_congr rfl fun k _ => ?_
  have hk := ValueIdx.contrEquiv1_symm_val dot_S3200x128_S128x128_S3200x128_1_0_0_1_n_n 128 rfl rfl k
  have el : dot_S3200x128_S128x128_S3200x128_1_0_0_1_n_n.lhsIdx j ((ValueIdx.contrEquiv1 dot_S3200x128_S128x128_S3200x128_1_0_0_1_n_n 128 rfl rfl).symm k) = blockRow j k := funext fun a => Fin.ext (by
    match a with
    | ⟨0, _⟩ => exact lhsP_0 _ _
    | ⟨1, _⟩ => exact (lhsP_1 _ _).trans hk)
  have er : dot_S3200x128_S128x128_S3200x128_1_0_0_1_n_n.rhsIdx j ((ValueIdx.contrEquiv1 dot_S3200x128_S128x128_S3200x128_1_0_0_1_n_n 128 rfl rfl).symm k) = matKC j k := funext fun a => Fin.ext (by
    match a with
    | ⟨0, _⟩ => exact (rhsP_0 _ _).trans hk
    | ⟨1, _⟩ => exact rhsP_1 _ _)
  rw [el, er]

/-! ## The second product: rows of the block against ROWS of the matrix -/

theorem lhsT_0 (i : S3200x128.Idx) (q : dot_S3200x128_S128x128_S3200x128_1_1_0_0_n_n.contr.Idx) :
    (dot_S3200x128_S128x128_S3200x128_1_1_0_0_n_n.lhsIdx i q 0).val = (i 0).val := by
  unfold DotDims.lhsIdx
  rw [dif_neg (show ¬(0 : Fin S3200x128.rank) ∈ dot_S3200x128_S128x128_S3200x128_1_1_0_0_n_n.lhsBatch by decide), dif_pos (show (0 : Fin S3200x128.rank) ∈ dot_S3200x128_S128x128_S3200x128_1_1_0_0_n_n.lhsNonContracting by decide)]
  rfl
theorem lhsT_1 (i : S3200x128.Idx) (q : dot_S3200x128_S128x128_S3200x128_1_1_0_0_n_n.contr.Idx) :
    (dot_S3200x128_S128x128_S3200x128_1_1_0_0_n_n.lhsIdx i q 1).val = (q ⟨0, by decide⟩).val :=
  dot_S3200x128_S128x128_S3200x128_1_1_0_0_n_n.lhsIdx_val_of_single rfl i q
theorem rhsT_0 (i : S3200x128.Idx) (q : dot_S3200x128_S128x128_S3200x128_1_1_0_0_n_n.contr.Idx) :
    (dot_S3200x128_S128x128_S3200x128_1_1_0_0_n_n.rhsIdx i q 0).val = (i 1).val := by
  unfold DotDims.rhsIdx
  rw [dif_neg (show ¬(0 : Fin S128x128.rank) ∈ dot_S3200x128_S128x128_S3200x128_1_1_0_0_n_n.rhsBatch by decide), dif_pos (show (0 : Fin S128x128.rank) ∈ dot_S3200x128_S128x128_S3200x128_1_1_0_0_n_n.rhsNonContracting by decide)]
  rfl
theorem rhsT_1 (i : S3200x128.Idx) (q : dot_S3200x128_S128x128_S3200x128_1_1_0_0_n_n.contr.Idx) :
    (dot_S3200x128_S128x128_S3200x128_1_1_0_0_n_n.rhsIdx i q 1).val = (q ⟨0, by decide⟩).val :=
  dot_S3200x128_S128x128_S3200x128_1_1_0_0_n_n.rhsIdx_val_of_single rfl i q

/-- The product against the transposed matrix, into a zero accumulator, at an entry. -/
theorem prodT_apply (l : FVec Ideal S3200x128 .bf16) (r : FVec Ideal S128x128 .bf16) (j : S3200x128.Idx) :
    FloatOps.matmul dot_S3200x128_S128x128_S3200x128_1_1_0_0_n_n none l r (constant (F := Ideal) S3200x128 .f32 0x00000000#32) j
      = ∑ k : Fin 128, l (blockRow j k) * r (matCK j k) := by
  rw [Ideal.matmul_constant_zero_apply, ← Equiv.sum_comp (ValueIdx.contrEquiv1 dot_S3200x128_S128x128_S3200x128_1_1_0_0_n_n 128 rfl rfl).symm]
  refine Finset.sum_congr rfl fun k _ => ?_
  have hk := ValueIdx.contrEquiv1_symm_val dot_S3200x128_S128x128_S3200x128_1_1_0_0_n_n 128 rfl rfl k
  have el : dot_S3200x128_S128x128_S3200x128_1_1_0_0_n_n.lhsIdx j ((ValueIdx.contrEquiv1 dot_S3200x128_S128x128_S3200x128_1_1_0_0_n_n 128 rfl rfl).symm k) = blockRow j k := funext fun a => Fin.ext (by
    match a with
    | ⟨0, _⟩ => exact lhsT_0 _ _
    | ⟨1, _⟩ => exact (lhsT_1 _ _).trans hk)
  have er : dot_S3200x128_S128x128_S3200x128_1_1_0_0_n_n.rhsIdx j ((ValueIdx.contrEquiv1 dot_S3200x128_S128x128_S3200x128_1_1_0_0_n_n 128 rfl rfl).symm k) = matCK j k := funext fun a => Fin.ext (by
    match a with
    | ⟨0, _⟩ => exact rhsT_0 _ _
    | ⟨1, _⟩ => exact (rhsT_1 _ _).trans hk)
  rw [el, er]

/-! ## The stored value -/

/-- What the body stores, at entry `j` of the block, from the five loaded blocks. -/
theorem stored_apply (x0 x1 x2 : Vec Ideal S3200x128 .f32) (x3 x4 : Vec Ideal S128x128 .f32) (j : S3200x128.Idx) :
    k0_pay1 (F := Ideal) x0 x1 x2 x3 x4 j
      = max (((∑ k : Fin 128, (x0 (blockRow j k) - x1 (blockRow j k)) * x3 (matKC j k))
              + ∑ k : Fin 128, x2 (blockRow j k) * x4 (matCK j k)) + x2 j) 0 := by
  unfold k0_pay1
  simp only [shapeCast_self]
  show max ((FloatOps.matmul dot_S3200x128_S128x128_S3200x128_1_0_0_1_n_n none _ _ (constant (F := Ideal) S3200x128 .f32 0x00000000#32) j
      + FloatOps.matmul dot_S3200x128_S128x128_S3200x128_1_1_0_0_n_n none _ _ (constant (F := Ideal) S3200x128 .f32 0x00000000#32) j) + x2 j)
    (Ideal.ofBits .f32 0x00000000#32) = _
  rw [prod_apply, prodT_apply, Ideal.ofBits_zero_f32]
  rfl

end Cert.KernelIdeal.EdgeBody

end
-- ==== Proof.Spec.lean ====
/-
  What one message-passing layer computes, index by index, on the extended reals.

  Edge update: for edge `r` and channel `c`
      max ( Σ_k (vi[r,k] − vj[r,k]) · Wen[k,c]  +  Σ_k e[r,k] · βe[c,k]  +  e[r,c] , 0 ),
  the difference of the two endpoint feature rows through `Wen`, the edge's own features through the
  TRANSPOSE of `βe` (the second sum runs along a row of `βe`), the residual, and the rectifier.
  Node update: the same expression with the aggregated messages in place of the endpoint difference,
      max ( Σ_k agg[r,k] · Wne[k,c]  +  Σ_k x[r,k] · βn[c,k]  +  x[r,c] , 0 ).
  Both are stated over whole arrays of literal extents; a row block of either is the same expression of
  the corresponding row block of the operands, which is all that tiling the rows uses.
-/
import Idealize.ShloMosaic.PureOps.Ideal
import Idealize.ShloMosaic.Lib.ValueIdx

noncomputable section

namespace Cert.Spec

open Idealize.ShloMosaic

/-- Edge features: 800000 edges by 128 channels. -/
abbrev SE : Shape := ⟨2, ![800000, 128]⟩
/-- Node features: 50000 nodes by 128 channels. -/
abbrev SN : Shape := ⟨2, ![50000, 128]⟩
/-- A channel-mixing matrix. -/
abbrev SW : Shape := ⟨2, ![128, 128]⟩

/-! ## Indices: the row of an output entry at channel `k`; a matrix entry in the output's column -/

/-- Entry `(row of i, k)` of an edge array. -/
abbrev edgeRow (i : SE.Idx) (k : Fin 128) : SE.Idx := fun a => match a with
  | ⟨0, _⟩ => ⟨(i 0).val, (i 0).isLt⟩
  | ⟨1, _⟩ => ⟨k.val, k.isLt⟩
/-- Entry `(k, column of i)` of a matrix, for an edge-array index `i`. -/
abbrev edgeMatKC (i : SE.Idx) (k : Fin 128) : SW.Idx := fun a => match a with
  | ⟨0, _⟩ => ⟨k.val, k.isLt⟩
  | ⟨1, _⟩ => ⟨(i 1).val, (i 1).isLt⟩
/-- Entry `(column of i, k)` of a matrix: the transposed read. -/
abbrev edgeMatCK (i : SE.Idx) (k : Fin 128) : SW.Idx := fun a => match a with
  | ⟨0, _⟩ => ⟨(i 1).val, (i 1).isLt⟩
  | ⟨1, _⟩ => ⟨k.val, k.isLt⟩

/-- Entry `(row of i, k)` of a node array. -/
abbrev nodeRow (i : SN.Idx) (k : Fin 128) : SN.Idx := fun a => match a with
  | ⟨0, _⟩ => ⟨(i 0).val, (i 0).isLt⟩
  | ⟨1, _⟩ => ⟨k.val, k.isLt⟩
/-- Entry `(k, column of i)` of a matrix, for a node-array index `i`. -/
abbrev nodeMatKC (i : SN.Idx) (k : Fin 128) : SW.Idx := fun a => match a with
  | ⟨0, _⟩ => ⟨k.val, k.isLt⟩
  | ⟨1, _⟩ => ⟨(i 1).val, (i 1).isLt⟩
/-- Entry `(column of i, k)` of a matrix: the transposed read. -/
abbrev nodeMatCK (i : SN.Idx) (k : Fin 128) : SW.Idx := fun a => match a with
  | ⟨0, _⟩ => ⟨(i 1).val, (i 1).isLt⟩
  | ⟨1, _⟩ => ⟨k.val, k.isLt⟩

/-! ## The two updates -/

/-- The updated edge features from the gathered endpoint rows `vi`, `vj`, the edge features `e` and the two
    matrices. -/
def edgeUpdate (vi vj e : SE.Idx → EReal) (wen be : SW.Idx → EReal) : SE.Idx → EReal := fun i =>
  max (((∑ k : Fin 128, (vi (edgeRow i k) - vj (edgeRow i k)) * wen (edgeMatKC i k))
        + ∑ k : Fin 128, e (edgeRow i k) * be (edgeMatCK i k)) + e i) 0

/-- The updated node features from the aggregated messages `agg`, the node features `x` and the two matrices. -/
def nodeUpdate (agg x : SN.Idx → EReal) (wne bn : SW.Idx → EReal) : SN.Idx → EReal := fun i =>
  max (((∑ k : Fin 128, agg (nodeRow i k) * wne (nodeMatKC i k))
        + ∑ k : Fin 128, x (nodeRow i k) * bn (nodeMatCK i k)) + x i) 0

end Cert.Spec

end
-- ==== Proof.EdgeArray.lean ====
/-
  From row blocks to the whole edge result array.

  The edge kernel runs on 250 grid points; point `t` stages rows 3200·t … 3200·t + 3199 of the two gathered
  endpoint arrays and of the edge features, the two 128×128 matrices whole, and writes back rows
  3200·t … 3200·t + 3199 of the result. An entry of the stored block depends only on ITS row of the three row
  blocks and on the matrices, so what point `t` writes back is row block `t` of one whole-array function — the
  edge update of the specification at the arrays the region finds. The 250 row blocks cover the 800000 rows
  (row r lies in block r / 3200), so after the region the result array IS that function.
  Everything is stated at the region's entry contents `V`, whatever they are.
-/
import proofs.«174323_j55585466745382_1_alg».proof.Proof.Gen.KernelIdeal.Frame
import proofs.«174323_j55585466745382_1_alg».proof.Proof.EdgeBody
import proofs.«174323_j55585466745382_1_alg».proof.Proof.Spec
import Idealize.ShloMosaic.Lib.Pipeline.Value

set_option maxRecDepth 16384

noncomputable section

namespace Cert.KernelIdeal.EdgeArray

open Cert.KernelIdeal Cert.KernelIdeal.Gen Idealize.ShloMosaic Idealize.ShloMosaic.TcCoe Idealize.SL.Sem Cert.Spec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 250 grid points: the three row-blocked inputs and the output sit at row block
    `t`, column block 0; the two matrices at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The region's five input arrays at their literal types -/

/-- The gathered target-endpoint rows, as the region finds them. -/
abbrev arrVi (c : Dev nD) : S800000x128.Idx → EReal := V c main_v8
/-- The gathered source-endpoint rows. -/
abbrev arrVj (c : Dev nD) : S800000x128.Idx → EReal := V c main_v17
/-- The edge features. -/
abbrev arrE (c : Dev nD) : S800000x128.Idx → EReal := V c main_arg2
/-- The node-to-edge matrix. -/
abbrev arrWen (c : Dev nD) : S128x128.Idx → EReal := V c main_arg4
/-- The edge self-interaction matrix. -/
abbrev arrBe (c : Dev nD) : S128x128.Idx → EReal := V c main_arg5

/-- WHAT POINT `t` WRITES BACK is row block `t` of the edge update of the arrays as the region finds them: each
    entry (r, c) of the stored block is the update's expression over row `r` of the three input blocks, which are
    rows 3200·t + r of their arrays, and over the two whole matrices. -/
theorem flushed_eq (c : Dev nD) (t : Fin cfg0.N) :
    (dat0 V c).flushed 5 t = ((cfg0.win 5).blk t).view.read (Elt Ideal)
      (edgeUpdate (V c main_v8) (V c main_v17) (V c main_arg2) (V c main_arg4) (V c main_arg5)) := by
  show (cfg0.win 5).cut (grid0.coords t) ((dat0 V c).after 5 t) = _
  rw [after0_5]
  unfold out0_5
  rw [View.canon_unit_zero hz]
  simp only [View.ld_unit_zero (S := S3200x128) hz, View.ld_unit_zero (S := S128x128) hz]
  funext j
  refine (EdgeBody.stored_apply (iblk0 V c 0 t) (iblk0 V c 1 t) (iblk0 V c 2 t) (iblk0 V c 3 t) (iblk0 V c 4 t) j).trans ?_
  obtain ⟨e00, e01, e10, e11, e20, e21, e30, e31, e40, e41, e50, e51⟩ := idx_facts t
  have hj0 : (j 0).val < 3200 := (j 0).isLt
  have hj1 : (j 1).val < 128 := (j 1).isLt
  have r0 : ∀ k : Fin 128, ((cfg0.win 0).blk t).view.emb (EdgeBody.blockRow j k) = edgeRow (((cfg0.win 5).blk t).view.emb j) k := fun k => by
    funext a; apply Fin.ext
    match a with
    | ⟨0, _⟩ => show win0_0.index t (0 : Fin 2) * 3200 + 1 * (j 0).val = win0_5.index t (0 : Fin 2) * 3200 + 1 * (j 0).val; omega
    | ⟨1, _⟩ => show win0_0.index t (1 : Fin 2) * 128 + 1 * k.val = k.val; omega
  have r1 : ∀ k : Fin 128, ((cfg0.win 1).blk t).view.emb (EdgeBody.blockRow j k) = edgeRow (((cfg0.win 5).blk t).view.emb j) k := fun k => by
    funext a; apply Fin.ext
    match a with
    | ⟨0, _⟩ => show win0_1.index t (0 : Fin 2) * 3200 + 1 * (j 0).val = win0_5.index t (0 : Fin 2) * 3200 + 1 * (j 0).val; omega
    | ⟨1, _⟩ => show win0_1.index t (1 : Fin 2) * 128 + 1 * k.val = k.val; omega
  have r2 : ∀ k : Fin 128, ((cfg0.win 2).blk t).view.emb (EdgeBody.blockRow j k) = edgeRow (((cfg0.win 5).blk t).view.emb j) k := fun k => by
    funext a; apply Fin.ext
    match a with
    | ⟨0, _⟩ => show win0_2.index t (0 : Fin 2) * 3200 + 1 * (j 0).val = win0_5.index t (0 : Fin 2) * 3200 + 1 * (j 0).val; omega
    | ⟨1, _⟩ => show win0_2.index t (1 : Fin 2) * 128 + 1 * k.val = k.val; omega
  have r3 : ∀ k : Fin 128, ((cfg0.win 3).blk t).view.emb (EdgeBody.matKC j k) = edgeMatKC (((cfg0.win 5).blk t).view.emb j) k := fun k => by
    funext a; apply Fin.ext
    match a with
    | ⟨0, _⟩ => show win0_3.index t (0 : Fin 2) * 128 + 1 * k.val = k.val; omega
    | ⟨1, _⟩ => show win0_3.index t (1 : Fin 2) * 128 + 1 * (j 1).val = win0_5.index t (1 : Fin 2) * 128 + 1 * (j 1).val; omega
  have r4 : ∀ k : Fin 128, ((cfg0.win 4).blk t).view.emb (EdgeBody.matCK j k) = edgeMatCK (((cfg0.win 5).blk t).view.emb j) k := fun k => by
    funext a; apply Fin.ext
    match a with
    | ⟨0, _⟩ => show win0_4.index t (0 : Fin 2) * 128 + 1 * (j 1).val = win0_5.index t (1 : Fin 2) * 128 + 1 * (j 1).val; omega
    | ⟨1, _⟩ => show win0_4.index t (1 : Fin 2) * 128 + 1 * k.val = k.val; omega
  have r5 : ((cfg0.win 2).blk t).view.emb j = ((cfg0.win 5).blk t).view.emb j := by
    funext a; apply Fin.ext
    match a with
    | ⟨0, _⟩ => show win0_2.index t (0 : Fin 2) * 3200 + 1 * (j 0).val = win0_5.index t (0 : Fin 2) * 3200 + 1 * (j 0).val; omega
    | ⟨1, _⟩ => show win0_2.index t (1 : Fin 2) * 128 + 1 * (j 1).val = win0_5.index t (1 : Fin 2) * 128 + 1 * (j 1).val; omega
  show max (((∑ k : Fin 128, (arrVi V c (((cfg0.win 0).blk t).view.emb (EdgeBody.blockRow j k))
          - arrVj V c (((cfg0.win 1).blk t).view.emb (EdgeBody.blockRow j k)))
        * arrWen V c (((cfg0.win 3).blk t).view.emb (EdgeBody.matKC j k)))
      + ∑ k : Fin 128, arrE V c (((cfg0.win 2).blk t).view.emb (EdgeBody.blockRow j k))
        * arrBe V c (((cfg0.win 4).blk t).view.emb (EdgeBody.matCK j k)))
      + arrE V c (((cfg0.win 2).blk t).view.emb j)) 0
    = edgeUpdate (arrVi V c) (arrVj V c) (arrE V c) (arrWen V c) (arrBe V c) (((cfg0.win 5).blk t).view.emb j)
  simp only [r0, r1, r2, r3, r4, r5]
  rfl

/-- An index of the array is in point `t`'s block iff each coordinate is in the block's range on its axis. -/
theorem mem_blk (t : Fin cfg0.N) (i : S800000x128.Idx) :
    i ∈ ((cfg0.win 5).blk t).view.set ↔ ∀ a : Fin 2, win0_5.index t a * S3200x128.size a ≤ (i a).val ∧ (i a).val < win0_5.index t a * S3200x128.size a + S3200x128.size a := by
  show i ∈ ((View.whole main_v18).slice (win0_5.rect t)).set ↔ _
  rw [View.set_slice_whole, Rect.mem_set_unit]
  exact Iff.rfl

/-- Every row of the array is in some point's block: row `r` in the block of point `r / 3200`. -/
theorem cover (i : S800000x128.Idx) : ∃ t : Fin cfg0.N, (cfg0.win 5).flush t = true ∧ i ∈ ((cfg0.win 5).blk t).view.set := by
  have hi0 : (i 0).val < 800000 := (i 0).isLt
  have hi1 : (i 1).val < 128 := (i 1).isLt
  have ht : (i 0).val / 3200 < 250 := by omega
  refine ⟨⟨(i 0).val / 3200, ht⟩, flush0_5 _, ?_⟩
  rw [mem_blk]
  obtain ⟨-, -, -, -, -, -, -, -, -, -, e50, e51⟩ := idx_facts ⟨(i 0).val / 3200, ht⟩
  have e50' : win0_5.index ⟨(i 0).val / 3200, ht⟩ (0 : Fin 2) = (i 0).val / 3200 := e50
  intro a
  match a with
  | ⟨0, _⟩ =>
    show win0_5.index ⟨(i 0).val / 3200, ht⟩ (0 : Fin 2) * 3200 ≤ (i 0).val ∧ (i 0).val < win0_5.index ⟨(i 0).val / 3200, ht⟩ (0 : Fin 2) * 3200 + 3200
    omega
  | ⟨1, _⟩ =>
    show win0_5.index ⟨(i 0).val / 3200, ht⟩ (1 : Fin 2) * 128 ≤ (i 1).val ∧ (i 1).val < win0_5.index ⟨(i 0).val / 3200, ht⟩ (1 : Fin 2) * 128 + 128
    omega

/-- THE EDGE RESULT ARRAY after the region: the edge update of the arrays as the region finds them. -/
theorem final (c : Dev nD) :
    (dat0 V c).arrAt 5 cfg0.N = edgeUpdate (V c main_v8) (V c main_v17) (V c main_arg2) (V c main_arg4) (V c main_arg5) :=
  (dat0 V c).arrAt_eq_of_cover 5 _ (fun t _ => flushed_eq V c t) cover

end Cert.KernelIdeal.EdgeArray

end
-- ==== Proof.NodeBody.lean ====
/-
  The node kernel's body at one entry of its row block.

  The body stores ONE value over its whole [5000, 128] block: the rectifier of  A·W + X·Bᵀ + X  of the blocks it
  loaded (for the edge kernel A is the difference of the two endpoint blocks). On the extended reals the
  narrowing of the matrix unit's operands is the identity and a product into a zero accumulator is the
  plain sum over the 128 contracted channels, so at the entry (row r, column c) of the block the stored
  value is   max ( Σ_k A[r,k]·W[k,c] + Σ_k X[r,k]·B[c,k] + X[r,c] , 0 ):
  the first product contracts the matrix's ROWS, the second its COLUMNS (the transposed read).
-/
import proofs.«174323_j55585466745382_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.NodeBody

open Cert.KernelIdeal Cert.KernelIdeal.Gen Idealize.ShloMosaic Idealize.ShloMosaic.TcCoe

/-! ## Indices inside the block -/

/-- Entry `(row of j, k)` of a row block. -/
abbrev blockRow (j : S5000x128.Idx) (k : Fin 128) : S5000x128.Idx := fun a => match a with
  | ⟨0, _⟩ => ⟨(j 0).val, (j 0).isLt⟩
  | ⟨1, _⟩ => ⟨k.val, k.isLt⟩
/-- Entry `(k, column of j)` of a matrix. -/
abbrev matKC (j : S5000x128.Idx) (k : Fin 128) : S128x128.Idx := fun a => match a with
  | ⟨0, _⟩ => ⟨k.val, k.isLt⟩
  | ⟨1, _⟩ => ⟨(j 1).val, (j 1).isLt⟩
/-- Entry `(column of j, k)` of a matrix: the transposed read. -/
abbrev matCK (j : S5000x128.Idx) (k : Fin 128) : S128x128.Idx := fun a => match a with
  | ⟨0, _⟩ => ⟨(j 1).val, (j 1).isLt⟩
  | ⟨1, _⟩ => ⟨k.val, k.isLt⟩

/-! ## The first product: rows of the block against columns of the matrix -/

theorem lhsP_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsP_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsP_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsP_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into a zero accumulator, at an entry: the sum over the contracted channel. -/
theorem prod_apply (l : FVec Ideal S5000x128 .bf16) (r : FVec Ideal S128x128 .bf16) (j : S5000x128.Idx) :
    FloatOps.matmul dot_S5000x128_S128x128_S5000x128_1_0_0_1_n_n none l r (constant (F := Ideal) S5000x128 .f32 0x00000000#32) j
      = ∑ k : Fin 128, l (blockRow j k) * r (matKC j k) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = blockRow j k := funext fun a => Fin.ext (by
    match a with
    | ⟨0, _⟩ => exact lhsP_0 _ _
    | ⟨1, _⟩ => exact (lhsP_1 _ _).trans hk)
  have er : dot_S5000x128_S128x128_S5000x128_1_0_0_1_n_n.rhsIdx j ((ValueIdx.contrEquiv1 dot_S5000x128_S128x128_S5000x128_1_0_0_1_n_n 128 rfl rfl).symm k) = matKC j k := funext fun a => Fin.ext (by
    match a with
    | ⟨0, _⟩ => exact (rhsP_0 _ _).trans hk
    | ⟨1, _⟩ => exact rhsP_1 _ _)
  rw [el, er]

/-! ## The second product: rows of the block against ROWS of the matrix -/

theorem lhsT_0 (i : S5000x128.Idx) (q : dot_S5000x128_S128x128_S5000x128_1_1_0_0_n_n.contr.Idx) :
    (dot_S5000x128_S128x128_S5000x128_1_1_0_0_n_n.lhsIdx i q 0).val = (i 0).val := by
  unfold DotDims.lhsIdx
  rw [dif_neg (show ¬(0 : Fin S5000x128.rank) ∈ dot_S5000x128_S128x128_S5000x128_1_1_0_0_n_n.lhsBatch by decide), dif_pos (show (0 : Fin S5000x128.rank) ∈ dot_S5000x128_S128x128_S5000x128_1_1_0_0_n_n.lhsNonContracting by decide)]
  rfl
theorem lhsT_1 (i : S5000x128.Idx) (q : dot_S5000x128_S128x128_S5000x128_1_1_0_0_n_n.contr.Idx) :
    (dot_S5000x128_S128x128_S5000x128_1_1_0_0_n_n.lhsIdx i q 1).val = (q ⟨0, by decide⟩).val :=
  dot_S5000x128_S128x128_S5000x128_1_1_0_0_n_n.lhsIdx_val_of_single rfl i q
theorem rhsT_0 (i : S5000x128.Idx) (q : dot_S5000x128_S128x128_S5000x128_1_1_0_0_n_n.contr.Idx) :
    (dot_S5000x128_S128x128_S5000x128_1_1_0_0_n_n.rhsIdx i q 0).val = (i 1).val := by
  unfold DotDims.rhsIdx
  rw [dif_neg (show ¬(0 : Fin S128x128.rank) ∈ dot_S5000x128_S128x128_S5000x128_1_1_0_0_n_n.rhsBatch by decide), dif_pos (show (0 : Fin S128x128.rank) ∈ dot_S5000x128_S128x128_S5000x128_1_1_0_0_n_n.rhsNonContracting by decide)]
  rfl
theorem rhsT_1 (i : S5000x128.Idx) (q : dot_S5000x128_S128x128_S5000x128_1_1_0_0_n_n.contr.Idx) :
    (dot_S5000x128_S128x128_S5000x128_1_1_0_0_n_n.rhsIdx i q 1).val = (q ⟨0, by decide⟩).val :=
  dot_S5000x128_S128x128_S5000x128_1_1_0_0_n_n.rhsIdx_val_of_single rfl i q

/-- The product against the transposed matrix, into a zero accumulator, at an entry. -/
theorem prodT_apply (l : FVec Ideal S5000x128 .bf16) (r : FVec Ideal S128x128 .bf16) (j : S5000x128.Idx) :
    FloatOps.matmul dot_S5000x128_S128x128_S5000x128_1_1_0_0_n_n none l r (constant (F := Ideal) S5000x128 .f32 0x00000000#32) j
      = ∑ k : Fin 128, l (blockRow j k) * r (matCK j k) := by
  rw [Ideal.matmul_constant_zero_apply, ← Equiv.sum_comp (ValueIdx.contrEquiv1 dot_S5000x128_S128x128_S5000x128_1_1_0_0_n_n 128 rfl rfl).symm]
  refine Finset.sum_congr rfl fun k _ => ?_
  have hk := ValueIdx.contrEquiv1_symm_val dot_S5000x128_S128x128_S5000x128_1_1_0_0_n_n 128 rfl rfl k
  have el : dot_S5000x128_S128x128_S5000x128_1_1_0_0_n_n.lhsIdx j ((ValueIdx.contrEquiv1 dot_S5000x128_S128x128_S5000x128_1_1_0_0_n_n 128 rfl rfl).symm k) = blockRow j k := funext fun a => Fin.ext (by
    match a with
    | ⟨0, _⟩ => exact lhsT_0 _ _
    | ⟨1, _⟩ => exact (lhsT_1 _ _).trans hk)
  have er : dot_S5000x128_S128x128_S5000x128_1_1_0_0_n_n.rhsIdx j ((ValueIdx.contrEquiv1 dot_S5000x128_S128x128_S5000x128_1_1_0_0_n_n 128 rfl rfl).symm k) = matCK j k := funext fun a => Fin.ext (by
    match a with
    | ⟨0, _⟩ => exact rhsT_0 _ _
    | ⟨1, _⟩ => exact (rhsT_1 _ _).trans hk)
  rw [el, er]

/-! ## The stored value -/

/-- What the body stores, at entry `j` of the block, from the four loaded blocks. -/
theorem stored_apply (x0 x1 : Vec Ideal S5000x128 .f32) (x2 x3 : Vec Ideal S128x128 .f32) (j : S5000x128.Idx) :
    k1_pay1 (F := Ideal) x0 x1 x2 x3 j
      = max (((∑ k : Fin 128, x0 (blockRow j k) * x2 (matKC j k))
              + ∑ k : Fin 128, x1 (blockRow j k) * x3 (matCK j k)) + x1 j) 0 := by
  unfold k1_pay1
  simp only [shapeCast_self]
  show max ((FloatOps.matmul dot_S5000x128_S128x128_S5000x128_1_0_0_1_n_n none _ _ (constant (F := Ideal) S5000x128 .f32 0x00000000#32) j
      + FloatOps.matmul dot_S5000x128_S128x128_S5000x128_1_1_0_0_n_n none _ _ (constant (F := Ideal) S5000x128 .f32 0x00000000#32) j) + x1 j)
    (Ideal.ofBits .f32 0x00000000#32) = _
  rw [prod_apply, prodT_apply, Ideal.ofBits_zero_f32]
  rfl

end Cert.KernelIdeal.NodeBody

end
-- ==== Proof.NodeArray.lean ====
/-
  From row blocks to the whole node result array.

  The node kernel runs on 10 grid points; point `t` stages rows 5000·t … 5000·t + 4999 of the aggregated
  messages and of the node features, the two 128×128 matrices whole, and writes back the same rows of the
  result. An entry of the stored block depends only on its row of the two row blocks and on the matrices, so
  what point `t` writes back is row block `t` of one whole-array function — the node update of the
  specification at the arrays the region finds — and the 10 row blocks cover the 50000 rows (row r lies in
  block r / 5000). Stated at the region's entry contents `V`, whatever they are.
-/
import proofs.«174323_j55585466745382_1_alg».proof.Proof.Gen.KernelIdeal.Frame
import proofs.«174323_j55585466745382_1_alg».proof.Proof.NodeBody
import proofs.«174323_j55585466745382_1_alg».proof.Proof.Spec
import Idealize.ShloMosaic.Lib.Pipeline.Value

set_option maxRecDepth 16384

noncomputable section

namespace Cert.KernelIdeal.NodeArray

open Cert.KernelIdeal Cert.KernelIdeal.Gen Idealize.ShloMosaic Idealize.ShloMosaic.TcCoe Idealize.SL.Sem Cert.Spec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 10 grid points: the two row-blocked inputs and the output sit at row block
    `t`, column block 0; the two matrices at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-! ## The region's four input arrays at their literal types -/

/-- The aggregated messages, as the region finds them. -/
abbrev arrAgg (c : Dev nD) : S50000x128.Idx → EReal := V c main_v23
/-- The node features. -/
abbrev arrX (c : Dev nD) : S50000x128.Idx → EReal := V c main_arg0
/-- The edge-to-node matrix. -/
abbrev arrWne (c : Dev nD) : S128x128.Idx → EReal := V c main_arg3
/-- The node self-interaction matrix. -/
abbrev arrBn (c : Dev nD) : S128x128.Idx → EReal := V c main_arg6

/-- WHAT POINT `t` WRITES BACK is row block `t` of the node update of the arrays as the region finds them: each
    entry (r, c) of the stored block is the update's expression over row `r` of the two input blocks, which are
    rows 5000·t + r of their arrays, and over the two whole matrices. -/
theorem flushed_eq (c : Dev nD) (t : Fin cfg1.N) :
    (dat1 V c).flushed 4 t = ((cfg1.win 4).blk t).view.read (Elt Ideal)
      (nodeUpdate (V c main_v23) (V c main_arg0) (V c main_arg3) (V c main_arg6)) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz]
  funext j
  refine (NodeBody.stored_apply (iblk1 V c 0 t) (iblk1 V c 1 t) (iblk1 V c 2 t) (iblk1 V c 3 t) j).trans ?_
  obtain ⟨e00, e01, e10, e11, e20, e21, e30, e31, e40, e41⟩ := idx_facts t
  have hj0 : (j 0).val < 5000 := (j 0).isLt
  have hj1 : (j 1).val < 128 := (j 1).isLt
  have r0 : ∀ k : Fin 128, ((cfg1.win 0).blk t).view.emb (NodeBody.blockRow j k) = nodeRow (((cfg1.win 4).blk t).view.emb j) k := fun k => by
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * k.val = k.val; omega
  have r1 : ∀ k : Fin 128, ((cfg1.win 1).blk t).view.emb (NodeBody.blockRow j k) = nodeRow (((cfg1.win 4).blk t).view.emb j) k := fun k => by
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * k.val = k.val; omega
  have r2 : ∀ k : Fin 128, ((cfg1.win 2).blk t).view.emb (NodeBody.matKC j k) = nodeMatKC (((cfg1.win 4).blk t).view.emb j) k := fun k => by
    funext a; apply Fin.ext
    match a with
    | ⟨0, _⟩ => show win1_2.index t (0 : Fin 2) * 128 + 1 * k.val = k.val; omega
    | ⟨1, _⟩ => show win1_2.index t (1 : Fin 2) * 128 + 1 * (j 1).val = win1_4.index t (1 : Fin 2) * 128 + 1 * (j 1).val; omega
  have r3 : ∀ k : Fin 128, ((cfg1.win 3).blk t).view.emb (NodeBody.matCK j k) = nodeMatCK (((cfg1.win 4).blk t).view.emb j) k := fun k => by
    funext a; apply Fin.ext
    match a with
    | ⟨0, _⟩ => show win1_3.index t (0 : Fin 2) * 128 + 1 * (j 1).val = win1_4.index t (1 : Fin 2) * 128 + 1 * (j 1).val; omega
    | ⟨1, _⟩ => show win1_3.index t (1 : Fin 2) * 128 + 1 * k.val = k.val; omega
  have r4 : ((cfg1.win 1).blk t).view.emb j = ((cfg1.win 4).blk t).view.emb j := by
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * (j 1).val = win1_4.index t (1 : Fin 2) * 128 + 1 * (j 1).val; omega
  show max (((∑ k : Fin 128, arrAgg V c (((cfg1.win 0).blk t).view.emb (NodeBody.blockRow j k))
        * arrWne V c (((cfg1.win 2).blk t).view.emb (NodeBody.matKC j k)))
      + ∑ k : Fin 128, arrX V c (((cfg1.win 1).blk t).view.emb (NodeBody.blockRow j k))
        * arrBn V c (((cfg1.win 3).blk t).view.emb (NodeBody.matCK j k)))
      + arrX V c (((cfg1.win 1).blk t).view.emb j)) 0
    = nodeUpdate (arrAgg V c) (arrX V c) (arrWne V c) (arrBn V c) (((cfg1.win 4).blk t).view.emb j)
  simp only [r0, r1, r2, r3, r4]
  rfl

/-- An index of the array is in point `t`'s block iff each coordinate is in the block's range on its axis. -/
theorem mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v24).slice (win1_4.rect t)).set ↔ _
  rw [View.set_slice_whole, Rect.mem_set_unit]
  exact Iff.rfl

/-- Every row of the array is in some point's block: row `r` in the block of point `r / 5000`. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have ht : (i 0).val / 5000 < 10 := by omega
  refine ⟨⟨(i 0).val / 5000, ht⟩, flush1_4 _, ?_⟩
  rw [mem_blk]
  obtain ⟨-, -, -, -, -, -, -, -, e40, e41⟩ := idx_facts ⟨(i 0).val / 5000, ht⟩
  have e40' : win1_4.index ⟨(i 0).val / 5000, ht⟩ (0 : Fin 2) = (i 0).val / 5000 := e40
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    omega
  | ⟨1, _⟩ =>
    show win1_4.index ⟨(i 0).val / 5000, ht⟩ (1 : Fin 2) * 128 ≤ (i 1).val ∧ (i 1).val < win1_4.index ⟨(i 0).val / 5000, ht⟩ (1 : Fin 2) * 128 + 128
    omega

/-- THE NODE RESULT ARRAY after the region: the node update of the arrays as the region finds them. -/
theorem final (c : Dev nD) :
    (dat1 V c).arrAt 4 cfg1.N = nodeUpdate (V c main_v23) (V c main_arg0) (V c main_arg3) (V c main_arg6) :=
  (dat1 V c).arrAt_eq_of_cover 4 _ (fun t _ => flushed_eq V c t) cover

end Cert.KernelIdeal.NodeArray

end
-- ==== Proof.KernelValue.lean ====
/-
  The two result arrays of the kernel's program as functions of the launch memory.

  The program is: a stretch of host operations (two row gathers of the node features, at the two rows of the
  edge list with negative entries wrapped by the node count), the edge region, a second stretch (the scattered
  sum of the edge features by target node, into zeros), the node region. Neither region writes an array the
  other reads, and no host operation writes an argument, so
  • the edge result keeps, to the end, what the edge region left: the edge update of the two gathered arrays,
    the edge features and the two edge matrices, all as launched;
  • the node result is what the node region left: the node update of the scattered sum, the node features
    and the two node matrices, all as launched.
  The gathers and the scatter are named once and never opened.
-/
import proofs.«174323_j55585466745382_1_alg».proof.Proof.KernelRun
import proofs.«174323_j55585466745382_1_alg».proof.Proof.EdgeArray
import proofs.«174323_j55585466745382_1_alg».proof.Proof.NodeArray
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem Idealize.ShloMosaic.StableHlo Cert.Spec
open Idealize.ShloMosaic.Pipeline (Dat)

/-! ## The host-side arrays, named -/

/-- The node features gathered at row 1 of the edge list (the target endpoints). -/
def gatheredTarget (x0 : (⟨S50000x128, .f32⟩ : BufTy).Contents (Elt Ideal)) (x1 : (⟨S2x800000, .i32⟩ : BufTy).Contents (Elt Ideal)) :
    (⟨S800000x128, .f32⟩ : BufTy).Contents (Elt Ideal) :=
  Host.gather gather_S50000x128_S800000x1_S800000x128_1_0_n_n_0_1_1128 x0 (broadcastInDim S800000x1 ![0] bcast_S800000_S800000x1_0 (select (cmpi .slt (shapeCast _ (extractStridedSlice S1x800000 ![1, 0] x1 slices_S2x800000_S1x800000_1_0) shapeCasts_S1x800000_S800000) (broadcastInDim S800000 ![] bcast_S_S800000 (constantI S_ 32 0#32))) (addi (shapeCast _ (extractStridedSlice S1x800000 ![1, 0] x1 slices_S2x800000_S1x800000_1_0) shapeCasts_S1x800000_S800000) (broadcastInDim S800000 ![] bcast_S_S800000 (constantI S_ 32 50000#32))) (shapeCast _ (extractStridedSlice S1x800000 ![1, 0] x1 slices_S2x800000_S1x800000_1_0) shapeCasts_S1x800000_S800000)))

/-- The node features gathered at row 0 of the edge list (the source endpoints). -/
def gatheredSource (x0 : (⟨S50000x128, .f32⟩ : BufTy).Contents (Elt Ideal)) (x1 : (⟨S2x800000, .i32⟩ : BufTy).Contents (Elt Ideal)) :
    (⟨S800000x128, .f32⟩ : BufTy).Contents (Elt Ideal) :=
  Host.gather gather_S50000x128_S800000x1_S800000x128_1_0_n_n_0_1_1128 x0 (broadcastInDim S800000x1 ![0] bcast_S800000_S800000x1_0 (select (cmpi .slt (shapeCast _ (extractStridedSlice S1x800000 ![0, 0] x1 slices_S2x800000_S1x800000_0_0) shapeCasts_S1x800000_S800000) (broadcastInDim S800000 ![] bcast_S_S800000 (constantI S_ 32 0#32))) (addi (shapeCast _ (extractStridedSlice S1x800000 ![0, 0] x1 slices_S2x800000_S1x800000_0_0) shapeCasts_S1x800000_S800000) (broadcastInDim S800000 ![] bcast_S_S800000 (constantI S_ 32 50000#32))) (shapeCast _ (extractStridedSlice S1x800000 ![0, 0] x1 slices_S2x800000_S1x800000_0_0) shapeCasts_S1x800000_S800000)))

/-- The edge features summed into their target nodes, from zeros. -/
def aggregated (x1 : (⟨S2x800000, .i32⟩ : BufTy).Contents (Elt Ideal)) (x2 : (⟨S800000x128, .f32⟩ : BufTy).Contents (Elt Ideal)) :
    (⟨S50000x128, .f32⟩ : BufTy).Contents (Elt Ideal) :=
  Host.scatterAdd scatter_S50000x128_S800000x1_S800000x128_1_0_0_1 (broadcastInDim S50000x128 ![] bcast_S_S50000x128 (constant (F := Ideal) S_ .f32 0x00000000#32)) (broadcastInDim S800000x1 ![0] bcast_S800000_S800000x1_0 (shapeCast _ (extractStridedSlice S1x800000 ![1, 0] x1 slices_S2x800000_S1x800000_1_0) shapeCasts_S1x800000_S800000)) x2

variable (m : (ℓ : Loc nD τ sig) → Buf (Elt Ideal) ℓ) (ρ : Dev nD → PrngReg)

/-! ## After the first host stretch -/

theorem W1_arg0 (c : Dev nD) : W1 m ρ c (Proc.devRef .tc main_arg0) = m ((c.tc : Thread nD τ).loc main_arg0) := by
  show StableHlo.after hostOps0 (W0 m ρ c) (Proc.devRef .tc main_arg0) = _
  after_results
theorem W1_arg1 (c : Dev nD) : W1 m ρ c (Proc.devRef .tc main_arg1) = m ((c.tc : Thread nD τ).loc main_arg1) := by
  show StableHlo.after hostOps0 (W0 m ρ c) (Proc.devRef .tc main_arg1) = _
  after_results
theorem W1_arg2 (c : Dev nD) : W1 m ρ c (Proc.devRef .tc main_arg2) = m ((c.tc : Thread nD τ).loc main_arg2) := by
  show StableHlo.after hostOps0 (W0 m ρ c) (Proc.devRef .tc main_arg2) = _
  after_results
theorem W1_arg3 (c : Dev nD) : W1 m ρ c (Proc.devRef .tc main_arg3) = m ((c.tc : Thread nD τ).loc main_arg3) := by
  show StableHlo.after hostOps0 (W0 m ρ c) (Proc.devRef .tc main_arg3) = _
  after_results
theorem W1_arg4 (c : Dev nD) : W1 m ρ c (Proc.devRef .tc main_arg4) = m ((c.tc : Thread nD τ).loc main_arg4) := by
  show StableHlo.after hostOps0 (W0 m ρ c) (Proc.devRef .tc main_arg4) = _
  after_results
theorem W1_arg5 (c : Dev nD) : W1 m ρ c (Proc.devRef .tc main_arg5) = m ((c.tc : Thread nD τ).loc main_arg5) := by
  show StableHlo.after hostOps0 (W0 m ρ c) (Proc.devRef .tc main_arg5) = _
  after_results
theorem W1_arg6 (c : Dev nD) : W1 m ρ c (Proc.devRef .tc main_arg6) = m ((c.tc : Thread nD τ).loc main_arg6) := by
  show StableHlo.after hostOps0 (W0 m ρ c) (Proc.devRef .tc main_arg6) = _
  after_results

/-- The edge region finds the target-endpoint gather of the launched node features and edge list. -/
theorem entry_target (c : Dev nD) :
    W1 m ρ c (Proc.devRef .tc main_v8) = gatheredTarget (m ((c.tc : Thread nD τ).loc main_arg0)) (m ((c.tc : Thread nD τ).loc main_arg1)) := by
  show StableHlo.after hostOps0 (W0 m ρ c) (Proc.devRef .tc main_v8) = _
  after_results; rfl
/-- and the source-endpoint gather. -/
theorem entry_source (c : Dev nD) :
    W1 m ρ c (Proc.devRef .tc main_v17) = gatheredSource (m ((c.tc : Thread nD τ).loc main_arg0)) (m ((c.tc : Thread nD τ).loc main_arg1)) := by
  show StableHlo.after hostOps0 (W0 m ρ c) (Proc.devRef .tc main_v17) = _
  after_results; rfl

/-! ## After the edge region: it writes only its result array -/

theorem W2_arg0 (c : Dev nD) : W2 m ρ c (Proc.devRef .tc main_arg0) = m ((c.tc : Thread nD τ).loc main_arg0) :=
  (W2_of_ne m ρ c main_arg0 (by decide)).trans (W1_arg0 m ρ c)
theorem W2_arg1 (c : Dev nD) : W2 m ρ c (Proc.devRef .tc main_arg1) = m ((c.tc : Thread nD τ).loc main_arg1) :=
  (W2_of_ne m ρ c main_arg1 (by decide)).trans (W1_arg1 m ρ c)
theorem W2_arg2 (c : Dev nD) : W2 m ρ c (Proc.devRef .tc main_arg2) = m ((c.tc : Thread nD τ).loc main_arg2) :=
  ((W2_arr m ρ c 2).trans (((dat0 (V1 m ρ) c).arrAt_in 2 rfl _).trans (A_eq0 (V1 m ρ) c 2))).trans (W1_arg2 m ρ c)
theorem W2_arg3 (c : Dev nD) : W2 m ρ c (Proc.devRef .tc main_arg3) = m ((c.tc : Thread nD τ).loc main_arg3) :=
  (W2_of_ne m ρ c main_arg3 (by decide)).trans (W1_arg3 m ρ c)
theorem W2_arg6 (c : Dev nD) : W2 m ρ c (Proc.devRef .tc main_arg6) = m ((c.tc : Thread nD τ).loc main_arg6) :=
  (W2_of_ne m ρ c main_arg6 (by decide)).trans (W1_arg6 m ρ c)

/-- The edge result array when the edge region ends. -/
theorem edge_at_exit (c : Dev nD) :
    W2 m ρ c (Proc.devRef .tc main_v18)
      = edgeUpdate (gatheredTarget (m ((c.tc : Thread nD τ).loc main_arg0)) (m ((c.tc : Thread nD τ).loc main_arg1))) (gatheredSource (m ((c.tc : Thread nD τ).loc main_arg0)) (m ((c.tc : Thread nD τ).loc main_arg1)))
          (m ((c.tc : Thread nD τ).loc main_arg2)) (m ((c.tc : Thread nD τ).loc main_arg4)) (m ((c.tc : Thread nD τ).loc main_arg5)) := by
  refine ((W2_arr m ρ c 5).trans (EdgeArray.final (V1 m ρ) c)).trans ?_
  show edgeUpdate (W1 m ρ c (Proc.devRef .tc main_v8)) (W1 m ρ c (Proc.devRef .tc main_v17)) (W1 m ρ c (Proc.devRef .tc main_arg2))
    (W1 m ρ c (Proc.devRef .tc main_arg4)) (W1 m ρ c (Proc.devRef .tc main_arg5)) = _
  rw [entry_target, entry_source, W1_arg2, W1_arg4, W1_arg5]

/-! ## After the second host stretch -/

theorem W3_arg0 (c : Dev nD) : W3 m ρ c (Proc.devRef .tc main_arg0) = m ((c.tc : Thread nD τ).loc main_arg0) := by
  refine Eq.trans ?_ (W2_arg0 m ρ c)
  show StableHlo.after hostOps1 (W2 m ρ c) (Proc.devRef .tc main_arg0) = _
  after_results
theorem W3_arg3 (c : Dev nD) : W3 m ρ c (Proc.devRef .tc main_arg3) = m ((c.tc : Thread nD τ).loc main_arg3) := by
  refine Eq.trans ?_ (W2_arg3 m ρ c)
  show StableHlo.after hostOps1 (W2 m ρ c) (Proc.devRef .tc main_arg3) = _
  after_results
theorem W3_arg6 (c : Dev nD) : W3 m ρ c (Proc.devRef .tc main_arg6) = m ((c.tc : Thread nD τ).loc main_arg6) := by
  refine Eq.trans ?_ (W2_arg6 m ρ c)
  show StableHlo.after hostOps1 (W2 m ρ c) (Proc.devRef .tc main_arg6) = _
  after_results
/-- The second stretch does not touch the edge result. -/
theorem W3_edge (c : Dev nD) : W3 m ρ c (Proc.devRef .tc main_v18) = W2 m ρ c (Proc.devRef .tc main_v18) := by
  show StableHlo.after hostOps1 (W2 m ρ c) (Proc.devRef .tc main_v18) = _
  after_results
/-- The node region finds the scattered sum of the launched edge features by the launched edge list's row 1. -/
theorem entry_agg (c : Dev nD) :
    W3 m ρ c (Proc.devRef .tc main_v23) = aggregated (m ((c.tc : Thread nD τ).loc main_arg1)) (m ((c.tc : Thread nD τ).loc main_arg2)) := by
  rw [← W2_arg1 m ρ c, ← W2_arg2 m ρ c]
  show StableHlo.after hostOps1 (W2 m ρ c) (Proc.devRef .tc main_v23) = _
  after_results; rfl

/-! ## At the end -/

/-- The edge result array at the end of @main. -/
theorem edge_final (c : Dev nD) :
    W4 m ρ c (Proc.devRef .tc main_v18)
      = edgeUpdate (gatheredTarget (m ((c.tc : Thread nD τ).loc main_arg0)) (m ((c.tc : Thread nD τ).loc main_arg1))) (gatheredSource (m ((c.tc : Thread nD τ).loc main_arg0)) (m ((c.tc : Thread nD τ).loc main_arg1)))
          (m ((c.tc : Thread nD τ).loc main_arg2)) (m ((c.tc : Thread nD τ).loc main_arg4)) (m ((c.tc : Thread nD τ).loc main_arg5)) :=
  ((W4_of_ne m ρ c main_v18 (by decide)).trans (W3_edge m ρ c)).trans (edge_at_exit m ρ c)

/-- The node result array at the end of @main. -/
theorem node_final (c : Dev nD) :
    W4 m ρ c (Proc.devRef .tc main_v24)
      = nodeUpdate (aggregated (m ((c.tc : Thread nD τ).loc main_arg1)) (m ((c.tc : Thread nD τ).loc main_arg2))) (m ((c.tc : Thread nD τ).loc main_arg0)) (m ((c.tc : Thread nD τ).loc main_arg3)) (m ((c.tc : Thread nD τ).loc main_arg6)) := by
  refine ((W4_arr m ρ c 4).trans (NodeArray.final (V3 m ρ) c)).trans ?_
  show nodeUpdate (W3 m ρ c (Proc.devRef .tc main_v23)) (W3 m ρ c (Proc.devRef .tc main_arg0)) (W3 m ρ c (Proc.devRef .tc main_arg3))
    (W3 m ρ c (Proc.devRef .tc main_arg6)) = _
  rw [entry_agg, W3_arg0, W3_arg3, W3_arg6]

/-! ## The run -/

/-- Every weakly fair execution of the kernel's program terminates with the node result at the node update, the edge
    result at the edge update, and the arguments as launched. -/
theorem run : θ_run defs (onTc (τ := τ) (main (F := Ideal))) ⟨m, fun _ => 0, ρ⟩ (fun r => ∀ c : Dev nD,
      r.2.mem ((c.tc : Thread nD τ).loc main_v24)
        = nodeUpdate (aggregated (m ((c.tc : Thread nD τ).loc main_arg1)) (m ((c.tc : Thread nD τ).loc main_arg2))) (m ((c.tc : Thread nD τ).loc main_arg0)) (m ((c.tc : Thread nD τ).loc main_arg3)) (m ((c.tc : Thread nD τ).loc main_arg6))
      ∧ r.2.mem ((c.tc : Thread nD τ).loc main_v18)
        = edgeUpdate (gatheredTarget (m ((c.tc : Thread nD τ).loc main_arg0)) (m ((c.tc : Thread nD τ).loc main_arg1))) (gatheredSource (m ((c.tc : Thread nD τ).loc main_arg0)) (m ((c.tc : Thread nD τ).loc main_arg1)))
            (m ((c.tc : Thread nD τ).loc main_arg2)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (node_final m ρ c), (h c).2.1.trans (edge_final m ρ c), (h c).2.2⟩)
    (Named.run_named m ρ)

end Cert.KernelIdeal.KValue

end
-- ==== Proof.RefValue.lean ====
/-
  The reference computes the two updates of the specification.

  Its edge result is, stage by stage, the rectifier of  (v8 − v17)·Wen + e·βeᵀ + e  where v8, v17 are its
  two gathered endpoint arrays, and its node result the rectifier of  v28·Wne + x·βnᵀ + x  where v28 is its
  scattered sum of the edge features. Each product is read as a sum over the 128 channels, the transpose as
  the swapped matrix read, and every index that appears is the output's row at channel `k` or a matrix
  entry in the output's column; so the result at an index is the specification's expression at that index.
  The gathered and scattered arrays stay unopened: the specification takes them as arguments.
-/
import proofs.«174323_j55585466745382_1_alg».proof.Proof.Gen.ReferenceIdeal.Read
import proofs.«174323_j55585466745382_1_alg».proof.Proof.Spec

noncomputable section

namespace Cert.ReferenceIdeal.RefValue

open Cert.ReferenceIdeal Cert.ReferenceIdeal.Gen Cert.ReferenceIdeal.Read Idealize.ShloMosaic Idealize.ShloMosaic.TcCoe Cert.Spec

/-! ## The reference's composed indices are the specification's -/

theorem lrow_edge (i : S800000x128.Idx) (k : Fin 128) : lidx_main_v19 i k = edgeRow i k :=
  funext fun a => Fin.ext (by match a with | ⟨0, _⟩ => rfl | ⟨1, _⟩ => rfl)
theorem rmat_edge (i : S800000x128.Idx) (k : Fin 128) : ridx_main_v19 i k = edgeMatKC i k :=
  funext fun a => Fin.ext (by match a with | ⟨0, _⟩ => rfl | ⟨1, _⟩ => rfl)
theorem lrow_edge' (i : S800000x128.Idx) (k : Fin 128) : lidx_main_v21 i k = edgeRow i k :=
  funext fun a => Fin.ext (by match a with | ⟨0, _⟩ => rfl | ⟨1, _⟩ => rfl)
theorem rmatT_edge (i : S800000x128.Idx) (k : Fin 128) : idx_main_v20 (ridx_main_v21 i k) = edgeMatCK i k :=
  funext fun a => Fin.ext (by match a with | ⟨0, _⟩ => rfl | ⟨1, _⟩ => rfl)

theorem lrow_node (i : S50000x128.Idx) (k : Fin 128) : lidx_main_v29 i k = nodeRow i k :=
  funext fun a => Fin.ext (by match a with | ⟨0, _⟩ => rfl | ⟨1, _⟩ => rfl)
theorem rmat_node (i : S50000x128.Idx) (k : Fin 128) : ridx_main_v29 i k = nodeMatKC i k :=
  funext fun a => Fin.ext (by match a with | ⟨0, _⟩ => rfl | ⟨1, _⟩ => rfl)
theorem lrow_node' (i : S50000x128.Idx) (k : Fin 128) : lidx_main_v31 i k = nodeRow i k :=
  funext fun a => Fin.ext (by match a with | ⟨0, _⟩ => rfl | ⟨1, _⟩ => rfl)
theorem rmatT_node (i : S50000x128.Idx) (k : Fin 128) : idx_main_v30 (ridx_main_v31 i k) = nodeMatCK i k :=
  funext fun a => Fin.ext (by match a with | ⟨0, _⟩ => rfl | ⟨1, _⟩ => rfl)

/-! ## The two results -/

/-- The reference's edge result is the edge update of its two gathered arrays. -/
theorem edge_eq (x0 : (⟨S50000x128, .f32⟩ : BufTy).Contents (Elt Ideal)) (x1 : (⟨S2x800000, .i32⟩ : BufTy).Contents (Elt Ideal))
    (x2 : (⟨S800000x128, .f32⟩ : BufTy).Contents (Elt Ideal)) (x4 x5 : (⟨S128x128, .f32⟩ : BufTy).Contents (Elt Ideal)) :
    val_main_v35 (F := Ideal) x0 x1 x2 x4 x5
      = edgeUpdate (val_main_v8 (F := Ideal) x0 x1) (val_main_v17 (F := Ideal) x0 x1) x2 x4 x5 := by
  funext i
  rw [val_main_v35_apply, val_main_v23_apply, val_main_v22_apply, val_main_v19_apply, val_main_v21_apply,
    val_main_call1_v0_apply, val_main_call1_cst_apply]
  simp only [val_main_v18_apply, val_main_v20_apply, lrow_edge, rmat_edge, lrow_edge', rmatT_edge]
  unfold edgeUpdate
  simp only [Ideal.maximumf_def, Ideal.addf_def, Ideal.subf_def, Ideal.ofBits_def, Ideal.ofBits_zero_f32]

/-- The reference's node result is the node update of its scattered sum. -/
theorem node_eq (x0 : (⟨S50000x128, .f32⟩ : BufTy).Contents (Elt Ideal)) (x1 : (⟨S2x800000, .i32⟩ : BufTy).Contents (Elt Ideal))
    (x2 : (⟨S800000x128, .f32⟩ : BufTy).Contents (Elt Ideal)) (x3 x6 : (⟨S128x128, .f32⟩ : BufTy).Contents (Elt Ideal)) :
    val_main_v34 (F := Ideal) x0 x1 x2 x3 x6
      = nodeUpdate (val_main_v28 (F := Ideal) x1 x2) x0 x3 x6 := by
  funext i
  rw [val_main_v34_apply, val_main_v33_apply, val_main_v32_apply, val_main_v29_apply, val_main_v31_apply,
    val_main_call0_v0_apply, val_main_call0_cst_apply]
  simp only [val_main_v30_apply, lrow_node, rmat_node, lrow_node', rmatT_node]
  unfold nodeUpdate
  simp only [Ideal.maximumf_def, Ideal.addf_def, Ideal.ofBits_def, Ideal.ofBits_zero_f32]

end Cert.ReferenceIdeal.RefValue

end
-- ==== Proof.lean ====
/-
  One message-passing layer of a graph network, in two Pallas kernels, against its jnp reference.

  Both programs gather the node features at the two rows of the edge list (a negative entry wrapped by the
  node count) and sum the edge features into their target nodes; these host operations are the SAME in the
  two programs, so the gathered arrays vi, vj and the aggregate agg are carried as named functions of the
  arguments and never opened. On top of them
      e_new = max ( (vi − vj)·W_en + e·β_eᵀ + e , 0 )      x_new = max ( agg·W_ne + x·β_nᵀ + x , 0 ).
  The kernel computes each on row blocks (3200 edge rows, 5000 node rows per grid point), narrowing the matrix
  unit's operands and accumulating into zeros; the reference computes whole-array products with the second
  matrix transposed first. On the extended reals a narrowing is the identity, a product into a zero accumulator
  is the plain sum over the 128 contracted channels, the transposed product is the sum along the matrix's
  rows, and a row of a row block is a row of the array: the two sides are the same expression at every
  index. No algebraic law is used beyond that, so the finiteness of the inputs is never opened.

  Proved here: the three programs run to the end without a fault and leave their arguments as launched (the
  two kernels' frames generated, the reference's from its run); the idealization ledger is empty; and from
  memories agreeing on the arguments the idealized kernel and the idealized reference end with equal results.
-/
import proofs.«174323_j55585466745382_1_alg».proof.Defs
import proofs.«174323_j55585466745382_1_alg».proof.Proof.Gen.Kernel
import proofs.«174323_j55585466745382_1_alg».proof.Proof.Gen.Kernel.Skeleton
import proofs.«174323_j55585466745382_1_alg».proof.Proof.Gen.Kernel.Launch
import proofs.«174323_j55585466745382_1_alg».proof.Proof.Gen.Kernel.Points
import proofs.«174323_j55585466745382_1_alg».proof.Proof.Gen.Kernel.Frame
import proofs.«174323_j55585466745382_1_alg».proof.Proof.Gen.KernelIdeal
import proofs.«174323_j55585466745382_1_alg».proof.Proof.Gen.KernelIdeal.Skeleton
import proofs.«174323_j55585466745382_1_alg».proof.Proof.Gen.KernelIdeal.Launch
import proofs.«174323_j55585466745382_1_alg».proof.Proof.Gen.KernelIdeal.Points
import proofs.«174323_j55585466745382_1_alg».proof.Proof.Gen.KernelIdeal.Frame
import proofs.«174323_j55585466745382_1_alg».proof.Proof.Gen.ReferenceIdeal
import proofs.«174323_j55585466745382_1_alg».proof.Proof.Gen.Pre_finite_inputs
import proofs.«174323_j55585466745382_1_alg».proof.Proof.Gen.ReferenceIdeal.Run
import proofs.«174323_j55585466745382_1_alg».proof.Proof.Gen.ReferenceIdeal.Read
import proofs.«174323_j55585466745382_1_alg».proof.Proof.KernelValue
import proofs.«174323_j55585466745382_1_alg».proof.Proof.RefValue
import Idealize.ShloMosaic.Adequacy
import Idealize.ShloMosaic.Init

noncomputable section

namespace Cert.Proof

open Idealize.ShloMosaic Idealize.ShloMosaic.TcCoe Idealize.SL.Sem Cert.Spec

/-! ## The shared host arrays: the kernel's program and the reference apply the same operations -/

theorem target_eq (x0 : (⟨Cert.ReferenceIdeal.S50000x128, .f32⟩ : BufTy).Contents (Elt Ideal)) (x1 : (⟨Cert.ReferenceIdeal.S2x800000, .i32⟩ : BufTy).Contents (Elt Ideal)) :
    Cert.ReferenceIdeal.Read.val_main_v8 (F := Ideal) x0 x1 = Cert.KernelIdeal.KValue.gatheredTarget x0 x1 := rfl
theorem source_eq (x0 : (⟨Cert.ReferenceIdeal.S50000x128, .f32⟩ : BufTy).Contents (Elt Ideal)) (x1 : (⟨Cert.ReferenceIdeal.S2x800000, .i32⟩ : BufTy).Contents (Elt Ideal)) :
    Cert.ReferenceIdeal.Read.val_main_v17 (F := Ideal) x0 x1 = Cert.KernelIdeal.KValue.gatheredSource x0 x1 := rfl
theorem agg_eq (x1 : (⟨Cert.ReferenceIdeal.S2x800000, .i32⟩ : BufTy).Contents (Elt Ideal)) (x2 : (⟨Cert.ReferenceIdeal.S800000x128, .f32⟩ : BufTy).Contents (Elt Ideal)) :
    Cert.ReferenceIdeal.Read.val_main_v28 (F := Ideal) x1 x2 = Cert.KernelIdeal.KValue.aggregated x1 x2 := rfl

/-! ## The claims -/

theorem frame_k : Cert.frame_Kernel := fun m ρ _ => Cert.Kernel.Gen.frame m ρ
theorem frame_ki : Cert.frame_KernelIdeal := fun m ρ _ => Cert.KernelIdeal.Gen.frame m ρ
/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing: the idealized kernel is the kernel's own text read on the extended reals. -/
theorem preserves : Cert.preserves_Kernel_KernelIdeal := trivial

/-- Both runs end with the node result at the node update and the edge result at the edge update of the same
    arguments: the kernel's by its row blocks, the reference's stage by stage. -/
theorem algebraic : Cert.algebraic_KernelIdeal_ReferenceIdeal := by
  intro m ρ m' ρ' _ hagree
  refine ⟨fun c => nodeUpdate (Cert.KernelIdeal.KValue.aggregated (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)),
    fun c => edgeUpdate (Cert.KernelIdeal.KValue.gatheredTarget (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (Cert.KernelIdeal.KValue.gatheredSource (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6⟩ := hagree c
    rw [h0, h1, h2, h3, h6, Cert.ReferenceIdeal.Read.val_main_v34_eq, Cert.ReferenceIdeal.RefValue.node_eq, agg_eq]
  · obtain ⟨h0, h1, h2, h3, h4, h5, h6⟩ := hagree c
    rw [h0, h1, h2, h4, h5, Cert.ReferenceIdeal.Read.val_main_v35_eq, Cert.ReferenceIdeal.RefValue.edge_eq, target_eq, source_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
